-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S500000x256 : Shape := ⟨2, ![500000, 256]⟩
abbrev S256x256 : Shape := ⟨2, ![256, 256]⟩
abbrev S256 : Shape := ⟨1, ![256]⟩
abbrev S2x500000 : Shape := ⟨2, ![2, 500000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S500000x256 : S_.BroadcastsInDim S500000x256 (![] : Fin 0 → Fin S500000x256.rank)
  reducesTo_S500000x256_S_d0_1 : S500000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_arg9 : FVec F S256x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x256 .f32) (main_arg1 : FVec F S500000x256 .f32) (main_arg2 : FVec F S256x256 .f32) (main_arg3 : FVec F S256 .f32) (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_arg10 : IVec S2x500000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S500000x256 .f32 := Host.absf main_arg1
  let main_cst_0 : FVec F S_ .f32 := constant S_ .f32 0x7F800000#32
  let main_v5 : FVec F S500000x256 .f32 := broadcastInDim S500000x256 ![] bcast_S_S500000x256 main_cst_0
  let main_v6 : IVec S500000x256 1 := cmpf .olt main_v4 main_v5
  let main_c_1 : IVec S_ 1 := constantI S_ 1 1#1
  let main_v7 : IVec S_ 1 := (fun x v => Host.reduce IntOp.andi x v reducesTo_S500000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S50000x256 : Shape := ⟨2, ![50000, 256]⟩
abbrev S500000x256 : Shape := ⟨2, ![500000, 256]⟩
abbrev S256x256 : Shape := ⟨2, ![256, 256]⟩
abbrev S256 : Shape := ⟨1, ![256]⟩
abbrev S2x500000 : Shape := ⟨2, ![2, 500000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S50000 : Shape := ⟨1, ![50000]⟩
abbrev S50000x1 : Shape := ⟨2, ![50000, 1]⟩
abbrev S1x256 : Shape := ⟨2, ![1, 256]⟩
abbrev S2000x256 : Shape := ⟨2, ![2000, 256]⟩

abbrev nBuf : Space → Nat
  | .hbm => 92
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S500000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S2x500000, .i32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S_, .f32⟩
  | .hbm, ⟨16, _⟩ => ⟨S50000x256, .f32⟩
  | .hbm, ⟨17, _⟩ => ⟨S500000x1, .i32⟩
  | .hbm, ⟨18, _⟩ => ⟨S50000x256, .f32⟩
  | .hbm, ⟨19, _⟩ => ⟨S_, .f32⟩
  | .hbm, ⟨20, _⟩ => ⟨S500000, .f32⟩
  | .hbm, ⟨21, _⟩ => ⟨S_, .f32⟩
  | .hbm, ⟨22, _⟩ => ⟨S50000, .f32⟩
  | .hbm, ⟨23, _⟩ => ⟨S500000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x256, .f32⟩
  | .hbm, ⟨30, _⟩ => ⟨S50000x256, .f32⟩
  | .hbm, ⟨31, _⟩ => ⟨S256x256, .bf16⟩
  | .hbm, ⟨32, _⟩ => ⟨S1x256, .f32⟩
  | .hbm, ⟨33, _⟩ => ⟨S50000x256, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S500000x256, .f32⟩
  | .hbm, ⟨43, _⟩ => ⟨S_, .f32⟩
  | .hbm, ⟨44, _⟩ => ⟨S50000x256, .f32⟩
  | .hbm, ⟨45, _⟩ => ⟨S500000x1, .i32⟩
  | .hbm, ⟨46, _⟩ => ⟨S50000x256, .f32⟩
  | .hbm, ⟨47, _⟩ => ⟨S_, .f32⟩
  | .hbm, ⟨48, _⟩ => ⟨S500000, .f32⟩
  | .hbm, ⟨49, _⟩ => ⟨S_, .f32⟩
  | .hbm, ⟨50, _⟩ => ⟨S50000, .f32⟩
  | .hbm, ⟨51, _⟩ => ⟨S500000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x256, .f32⟩
  | .hbm, ⟨58, _⟩ => ⟨S50000x256, .f32⟩
  | .hbm, ⟨59, _⟩ => ⟨S256x256, .bf16⟩
  | .hbm, ⟨60, _⟩ => ⟨S256x256, .bf16⟩
  | .hbm, ⟨61, _⟩ => ⟨S1x256, .f32⟩
  | .hbm, ⟨62, _⟩ => ⟨S50000x256, .f32⟩
  | .hbm, ⟨63, _⟩ => ⟨S_, .i32⟩
  | .hbm, ⟨64, _⟩ => ⟨S500000, .i32⟩
  | .hbm, ⟨65, _⟩ => ⟨S500000, .i1⟩
  | .hbm, ⟨66, _⟩ => ⟨S_, .i32⟩
  | .hbm, ⟨67, _⟩ => ⟨S500000, .i32⟩
  | .hbm, ⟨68, _⟩ => ⟨S500000, .i32⟩
  | .hbm, ⟨69, _⟩ => ⟨S500000, .i32⟩
  | .hbm, ⟨70, _⟩ => ⟨S500000x1, .i32⟩
  | .hbm, ⟨71, _⟩ => ⟨S500000x256, .f32⟩
  | .hbm, ⟨72, _⟩ => ⟨S_, .f32⟩
  | .hbm, ⟨73, _⟩ => ⟨S50000x256, .f32⟩
  | .hbm, ⟨74, _⟩ => ⟨S500000x1, .i32⟩
  | .hbm, ⟨75, _⟩ => ⟨S50000x256, .f32⟩
  | .hbm, ⟨76, _⟩ => ⟨S_, .f32⟩
  | .hbm, ⟨77, _⟩ => ⟨S500000, .f32⟩
  | .hbm, ⟨78, _⟩ => ⟨S_, .f32⟩
  | .hbm, ⟨79, _⟩ => ⟨S50000, .f32⟩
  | .hbm, ⟨80, _⟩ => ⟨S500000x1, .i32⟩
  | .hbm, ⟨81, _⟩ => ⟨S50000, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000x1, .f32⟩
  | .hbm, ⟨86, _⟩ => ⟨S50000x256, .f32⟩
  | .hbm, ⟨87, _⟩ => ⟨S50000x256, .f32⟩
  | .hbm, ⟨88, _⟩ => ⟨S256x256, .bf16⟩
  | .hbm, ⟨89, _⟩ => ⟨S256x256, .bf16⟩
  | .hbm, ⟨90, _⟩ => ⟨S1x256, .f32⟩
  | .hbm, ⟨91, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .bf16⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .bf16⟩
  | .local _ .vmem, ⟨13, _⟩ => ⟨S1x256, .f32⟩
  | .local _ .vmem, ⟨14, _⟩ => ⟨S256x256, .bf16⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256x256, .bf16⟩
  | .local _ .vmem, ⟨22, _⟩ => ⟨S1x256, .f32⟩
  | .local _ .vmem, ⟨23, _⟩ => ⟨S256x256, .bf16⟩
  | .local _ .vmem, ⟨24, _⟩ => ⟨S2000x256, .f32⟩
  | .local _ .vmem, ⟨25, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000x256 : S_.BroadcastsInDim S50000x256 (![] : Fin 0 → Fin S50000x256.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bitsLt_bf16_f32 : FTy.bits .bf16 < FTy.bits .f32
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  dot_S2000x256_S256x256_S2000x256_1_0_0_1_n_n_wf : DotDims.WF S2000x256 S256x256 S2000x256 [1] [0] [0] [1] [] []
  gather_S50000x256_S500000x1_S500000x256_1_0_n_n_0_1_1256_wf : GatherDims.WF S50000x256 S500000x1 S500000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v37) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S500000x256 : Shape := ⟨2, ![500000, 256]⟩
abbrev S256x256 : Shape := ⟨2, ![256, 256]⟩
abbrev S256 : Shape := ⟨1, ![256]⟩
abbrev S2x500000 : Shape := ⟨2, ![2, 500000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S50000 : Shape := ⟨1, ![50000]⟩
abbrev S50000x1 : Shape := ⟨2, ![50000, 1]⟩
abbrev S1x256 : Shape := ⟨2, ![1, 256]⟩

abbrev nBuf : Space → Nat
  | .hbm => 101
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S500000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S2x500000, .i32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S_, .f32⟩
  | .hbm, ⟨16, _⟩ => ⟨S50000x256, .f32⟩
  | .hbm, ⟨17, _⟩ => ⟨S500000x1, .i32⟩
  | .hbm, ⟨18, _⟩ => ⟨S50000x256, .f32⟩
  | .hbm, ⟨19, _⟩ => ⟨S_, .f32⟩
  | .hbm, ⟨20, _⟩ => ⟨S500000, .f32⟩
  | .hbm, ⟨21, _⟩ => ⟨S_, .f32⟩
  | .hbm, ⟨22, _⟩ => ⟨S50000, .f32⟩
  | .hbm, ⟨23, _⟩ => ⟨S500000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x256, .f32⟩
  | .hbm, ⟨30, _⟩ => ⟨S50000x256, .f32⟩
  | .hbm, ⟨31, _⟩ => ⟨S50000x256, .f32⟩
  | .hbm, ⟨32, _⟩ => ⟨S50000x256, .f32⟩
  | .hbm, ⟨33, _⟩ => ⟨S1x256, .f32⟩
  | .hbm, ⟨34, _⟩ => ⟨S50000x256, .f32⟩
  | .hbm, ⟨35, _⟩ => ⟨S50000x256, .f32⟩
  | .hbm, ⟨36, _⟩ => ⟨S_, .i32⟩
  | .hbm, ⟨37, _⟩ => ⟨S500000, .i32⟩
  | .hbm, ⟨38, _⟩ => ⟨S500000, .i1⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S500000, .i32⟩
  | .hbm, ⟨43, _⟩ => ⟨S500000x1, .i32⟩
  | .hbm, ⟨44, _⟩ => ⟨S500000x256, .f32⟩
  | .hbm, ⟨45, _⟩ => ⟨S_, .f32⟩
  | .hbm, ⟨46, _⟩ => ⟨S50000x256, .f32⟩
  | .hbm, ⟨47, _⟩ => ⟨S500000x1, .i32⟩
  | .hbm, ⟨48, _⟩ => ⟨S50000x256, .f32⟩
  | .hbm, ⟨49, _⟩ => ⟨S_, .f32⟩
  | .hbm, ⟨50, _⟩ => ⟨S500000, .f32⟩
  | .hbm, ⟨51, _⟩ => ⟨S_, .f32⟩
  | .hbm, ⟨52, _⟩ => ⟨S50000, .f32⟩
  | .hbm, ⟨53, _⟩ => ⟨S500000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S500000, .i32⟩
  | .hbm, ⟨72, _⟩ => ⟨S500000, .i1⟩
  | .hbm, ⟨73, _⟩ => ⟨S_, .i32⟩
  | .hbm, ⟨74, _⟩ => ⟨S500000, .i32⟩
  | .hbm, ⟨75, _⟩ => ⟨S500000, .i32⟩
  | .hbm, ⟨76, _⟩ => ⟨S500000, .i32⟩
  | .hbm, ⟨77, _⟩ => ⟨S500000x1, .i32⟩
  | .hbm, ⟨78, _⟩ => ⟨S500000x256, .f32⟩
  | .hbm, ⟨79, _⟩ => ⟨S_, .f32⟩
  | .hbm, ⟨80, _⟩ => ⟨S50000x256, .f32⟩
  | .hbm, ⟨81, _⟩ => ⟨S500000x1, .i32⟩
  | .hbm, ⟨82, _⟩ => ⟨S50000x256, .f32⟩
  | .hbm, ⟨83, _⟩ => ⟨S_, .f32⟩
  | .hbm, ⟨84, _⟩ => ⟨S500000, .f32⟩
  | .hbm, ⟨85, _⟩ => ⟨S_, .f32⟩
  | .hbm, ⟨86, _⟩ => ⟨S50000, .f32⟩
  | .hbm, ⟨87, _⟩ => ⟨S500000x1, .i32⟩
  | .hbm, ⟨88, _⟩ => ⟨S50000, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x256, .f32⟩
  | .hbm, ⟨94, _⟩ => ⟨S50000x256, .f32⟩
  | .hbm, ⟨95, _⟩ => ⟨S50000x256, .f32⟩
  | .hbm, ⟨96, _⟩ => ⟨S1x256, .f32⟩
  | .hbm, ⟨97, _⟩ => ⟨S50000x256, .f32⟩
  | .hbm, ⟨98, _⟩ => ⟨S50000x256, .f32⟩
  | .hbm, ⟨99, _⟩ => ⟨S50000x256, .f32⟩
  | .hbm, ⟨100, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000x256 : S_.BroadcastsInDim S50000x256 (![] : Fin 0 → Fin S50000x256.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  dot_S50000x256_S256x256_S50000x256_1_0_0_1_n_n_wf : DotDims.WF S50000x256 S256x256 S50000x256 [1] [0] [0] [1] [] []
  gather_S50000x256_S500000x1_S500000x256_1_0_n_n_0_1_1256_wf : GatherDims.WF S50000x256 S500000x1 S500000x256 [1] [0] [] [0] [] 1 ![1, 256]

variable [Facts₀]

def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf

class Facts : Prop extends Facts₀ where

variable [Facts]
-- ==== Proof.Neighbours.lean ====
/-
  The mean over a node's incoming edges, as ONE function of the edge list and of the array whose rows are averaged:
  every edge gathers the row of its source node, the rows are summed into the edge's destination node, and each node's
  sum is divided by the number of its incoming edges, floored at one. The reference applies it twice, to the first
  layer's result and to the first convolution's; it is never opened here — both programs apply the same operations
  to equal arrays.
-/
import proofs.«101127_j36988258353722_1_alg».proof.Proof.Gen.ReferenceIdeal.Read

set_option maxRecDepth 16384

noncomputable section

namespace Cert.ReferenceIdeal.Stages

open Cert.ReferenceIdeal Cert.ReferenceIdeal.Gen Cert.ReferenceIdeal.Read Idealize.ShloMosaic

/-- The neighbours' mean of the rows of `y`: gather at the edges' sources, scatter-add into their destinations,
    divide by the floored in-degree. -/
def neighbourMean (x10 : (⟨S2x500000, .i32⟩ : BufTy).Contents (Elt Ideal)) (y : FVec Ideal S50000x256 .f32) : FVec Ideal S50000x256 .f32 :=
  Host.divf (F := Ideal) (φ := .f32)
    (Host.scatterAdd (F := Ideal) (φ := .f32) scatter_S50000x256_S500000x1_S500000x256_1_0_0_1 (val_main_v28 (F := Ideal)) (val_main_v29 (F := Ideal) x10)
      (Host.gather (α := Ideal .f32) gather_S50000x256_S500000x1_S500000x256_1_0_n_n_0_1_1256 y (val_main_v26 (F := Ideal) x10)))
    (val_main_v38 (F := Ideal) x10)

/-- The first convolution averages the first layer's rows. -/
theorem v39_eq (x0 : (⟨S50000x256, .f32⟩ : BufTy).Contents (Elt Ideal)) (x1 : (⟨S500000x256, .f32⟩ : BufTy).Contents (Elt Ideal)) (x2 : (⟨S256x256, .f32⟩ : BufTy).Contents (Elt Ideal)) (x3 : (⟨S256, .f32⟩ : BufTy).Contents (Elt Ideal)) (x10 : (⟨S2x500000, .i32⟩ : BufTy).Contents (Elt Ideal)) :
    val_main_v39 (F := Ideal) x0 x1 x2 x3 x10 = neighbourMean x10 (val_main_v20 (F := Ideal) x0 x1 x2 x3 x10) := rfl

/-- The second convolution averages the first convolution's rows, by the same operations over the same edge list. -/
theorem v65_eq (x0 : (⟨S50000x256, .f32⟩ : BufTy).Contents (Elt Ideal)) (x1 : (⟨S500000x256, .f32⟩ : BufTy).Contents (Elt Ideal)) (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (x6 : (⟨S256x256, .f32⟩ : BufTy).Contents (Elt Ideal)) (x10 : (⟨S2x500000, .i32⟩ : BufTy).Contents (Elt Ideal)) :
    val_main_v65 (F := Ideal) x0 x1 x2 x3 x4 x5 x6 x10 = neighbourMean x10 (val_main_v46 (F := Ideal) x0 x1 x2 x3 x4 x5 x6 x10) := rfl

end Cert.ReferenceIdeal.Stages

end
-- ==== Proof.Boundaries.lean ====
/-
  What the host operations between the pallas_calls leave in the buffers the next pallas_call reads, from ANY contents
  `W` of the buffers before them: the edge list split into its source and destination rows, the edge mean and the two
  neighbours' means (the same gather, scatter-add and division the reference applies), each weight matrix converted to
  bf16 (the identity on the extended reals), each bias laid out as one row; every buffer they do not write is as it was.
-/
import proofs.«101127_j36988258353722_1_alg».proof.Proof.Gen.KernelIdeal.Frame
import proofs.«101127_j36988258353722_1_alg».proof.Proof.Gen.ReferenceIdeal.Read
import proofs.«101127_j36988258353722_1_alg».proof.Proof.Neighbours
import Idealize.ShloMosaic.Lib.StableHlo.Run
import Idealize.ShloMosaic.Lib.Pipeline.Value
import Idealize.ShloMosaic.Lib.ValueIdx

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read (val_main_v1 val_main_v3 val_main_v15)
open Cert.ReferenceIdeal.Stages (neighbourMean)

variable (W : Valuation τ sig (Elt Ideal))

/-! ## Before the first pallas_call -/

set_option maxHeartbeats 4000000 in
/-- The node features are not written. -/
theorem pre0_nodes : StableHlo.after (hostOps0 (F := Ideal)) W (Proc.devRef .tc main_arg0) = W (Proc.devRef .tc main_arg0) := by
  simp only [hostOps0]; after_results_simp

set_option maxHeartbeats 4000000 in
/-- The edges' source nodes: row 0 of the edge list. -/
theorem pre0_src : StableHlo.after (hostOps0 (F := Ideal)) W (Proc.devRef .tc main_v1) = val_main_v1 (F := Ideal) (W (Proc.devRef .tc main_arg10)) := by
  simp only [hostOps0]; after_results_simp; rfl
set_option maxHeartbeats 4000000 in
/-- The edges' destination nodes: row 1 of the edge list. -/
theorem pre0_dst : StableHlo.after (hostOps0 (F := Ideal)) W (Proc.devRef .tc main_v3) = val_main_v3 (F := Ideal) (W (Proc.devRef .tc main_arg10)) := by
  simp only [hostOps0]; after_results_simp; rfl
set_option maxHeartbeats 4000000 in
/-- The mean of the incoming edges' features, by the reference's own operations. -/
theorem pre0_edgeMean : StableHlo.after (hostOps0 (F := Ideal)) W (Proc.devRef .tc main_v15)
    = val_main_v15 (F := Ideal) (W (Proc.devRef .tc main_arg1)) (W (Proc.devRef .tc main_arg10)) := by
  simp only [hostOps0]; after_results_simp; rfl
set_option maxHeartbeats 4000000 in
/-- The first layer's weights converted to bf16: the same extended reals. -/
theorem pre0_weights (i : S256x256.Idx) :
    (StableHlo.after (hostOps0 (F := Ideal)) W (Proc.devRef .tc main_v16) : S256x256.Idx → EReal) i = (W (Proc.devRef .tc main_arg2) : S256x256.Idx → EReal) i := by
  simp only [hostOps0]; after_results_simp; rfl

set_option maxHeartbeats 4000000 in
/-- The first layer's bias as one row. -/
theorem pre0_bias (j : Fin 256) :
    (StableHlo.after (hostOps0 (F := Ideal)) W (Proc.devRef .tc main_v17) : S1x256.Idx → EReal) (ix2 (0 : Fin 1) j) = (W (Proc.devRef .tc main_arg3) : S256.Idx → EReal) (ix1 j) := by
  simp only [hostOps0]; after_results_simp
  exact shapeCast_apply _ shapeCasts_S256_S1x256 (ix2 (0 : Fin 1) j) (ix1 j) (by
    rw [Shape.rowMajor_val_two, Shape.rowMajor_val_one]; show j.val = 0 * 256 + j.val; omega)

set_option maxHeartbeats 4000000 in
/-- Argument 4 is not written. -/
theorem pre0_keep4 : StableHlo.after (hostOps0 (F := Ideal)) W (Proc.devRef .tc main_arg4) = W (Proc.devRef .tc main_arg4) := by
  simp only [hostOps0]; after_results_simp

set_option maxHeartbeats 4000000 in
/-- Argument 5 is not written. -/
theorem pre0_keep5 : StableHlo.after (hostOps0 (F := Ideal)) W (Proc.devRef .tc main_arg5) = W (Proc.devRef .tc main_arg5) := by
  simp only [hostOps0]; after_results_simp

set_option maxHeartbeats 4000000 in
/-- Argument 6 is not written. -/
theorem pre0_keep6 : StableHlo.after (hostOps0 (F := Ideal)) W (Proc.devRef .tc main_arg6) = W (Proc.devRef .tc main_arg6) := by
  simp only [hostOps0]; after_results_simp

set_option maxHeartbeats 4000000 in
/-- Argument 7 is not written. -/
theorem pre0_keep7 : StableHlo.after (hostOps0 (F := Ideal)) W (Proc.devRef .tc main_arg7) = W (Proc.devRef .tc main_arg7) := by
  simp only [hostOps0]; after_results_simp

set_option maxHeartbeats 4000000 in
/-- Argument 8 is not written. -/
theorem pre0_keep8 : StableHlo.after (hostOps0 (F := Ideal)) W (Proc.devRef .tc main_arg8) = W (Proc.devRef .tc main_arg8) := by
  simp only [hostOps0]; after_results_simp

set_option maxHeartbeats 4000000 in
/-- Argument 9 is not written. -/
theorem pre0_keep9 : StableHlo.after (hostOps0 (F := Ideal)) W (Proc.devRef .tc main_arg9) = W (Proc.devRef .tc main_arg9) := by
  simp only [hostOps0]; after_results_simp

/-! ## Between the first and the second pallas_call -/

set_option maxHeartbeats 4000000 in
/-- The neighbours' mean of the first layer's result, by the reference's own operations over the same edge list. -/
theorem mid1_mean (x10 : (⟨Cert.ReferenceIdeal.S2x500000, .i32⟩ : BufTy).Contents (Elt Ideal))
    (hs : W (Proc.devRef .tc main_v1) = val_main_v1 (F := Ideal) x10) (hd : W (Proc.devRef .tc main_v3) = val_main_v3 (F := Ideal) x10) :
    StableHlo.after (hostOps1 (F := Ideal)) W (Proc.devRef .tc main_v37) = neighbourMean x10 (W (Proc.devRef .tc main_v18)) := by
  simp only [hostOps1]; after_results_simp
  rw [hs, hd]
  rfl

set_option maxHeartbeats 4000000 in
/-- The first layer's result is not written. -/
theorem mid1_nodes : StableHlo.after (hostOps1 (F := Ideal)) W (Proc.devRef .tc main_v18) = W (Proc.devRef .tc main_v18) := by
  simp only [hostOps1]; after_results_simp

set_option maxHeartbeats 4000000 in
/-- The neighbours' weights converted to bf16. -/
theorem mid1_weightsL (i : S256x256.Idx) :
    (StableHlo.after (hostOps1 (F := Ideal)) W (Proc.devRef .tc main_v38) : S256x256.Idx → EReal) i = (W (Proc.devRef .tc main_arg4) : S256x256.Idx → EReal) i := by
  simp only [hostOps1]; after_results_simp; rfl

set_option maxHeartbeats 4000000 in
/-- The nodes' own weights converted to bf16. -/
theorem mid1_weightsR (i : S256x256.Idx) :
    (StableHlo.after (hostOps1 (F := Ideal)) W (Proc.devRef .tc main_v39) : S256x256.Idx → EReal) i = (W (Proc.devRef .tc main_arg6) : S256x256.Idx → EReal) i := by
  simp only [hostOps1]; after_results_simp; rfl

set_option maxHeartbeats 4000000 in
/-- The bias as one row. -/
theorem mid1_bias (j : Fin 256) :
    (StableHlo.after (hostOps1 (F := Ideal)) W (Proc.devRef .tc main_v40) : S1x256.Idx → EReal) (ix2 (0 : Fin 1) j) = (W (Proc.devRef .tc main_arg5) : S256.Idx → EReal) (ix1 j) := by
  simp only [hostOps1]; after_results_simp
  exact shapeCast_apply _ shapeCasts_S256_S1x256 (ix2 (0 : Fin 1) j) (ix1 j) (by
    rw [Shape.rowMajor_val_two, Shape.rowMajor_val_one]; show j.val = 0 * 256 + j.val; omega)

set_option maxHeartbeats 4000000 in
/-- The source nodes are not written. -/
theorem mid1_keepSrc : StableHlo.after (hostOps1 (F := Ideal)) W (Proc.devRef .tc main_v1) = W (Proc.devRef .tc main_v1) := by
  simp only [hostOps1]; after_results_simp

set_option maxHeartbeats 4000000 in
/-- The destination nodes are not written. -/
theorem mid1_keepDst : StableHlo.after (hostOps1 (F := Ideal)) W (Proc.devRef .tc main_v3) = W (Proc.devRef .tc main_v3) := by
  simp only [hostOps1]; after_results_simp

set_option maxHeartbeats 4000000 in
/-- Argument 7 is not written. -/
theorem mid1_keep7 : StableHlo.after (hostOps1 (F := Ideal)) W (Proc.devRef .tc main_arg7) = W (Proc.devRef .tc main_arg7) := by
  simp only [hostOps1]; after_results_simp

set_option maxHeartbeats 4000000 in
/-- Argument 8 is not written. -/
theorem mid1_keep8 : StableHlo.after (hostOps1 (F := Ideal)) W (Proc.devRef .tc main_arg8) = W (Proc.devRef .tc main_arg8) := by
  simp only [hostOps1]; after_results_simp

set_option maxHeartbeats 4000000 in
/-- Argument 9 is not written. -/
theorem mid1_keep9 : StableHlo.after (hostOps1 (F := Ideal)) W (Proc.devRef .tc main_arg9) = W (Proc.devRef .tc main_arg9) := by
  simp only [hostOps1]; after_results_simp

/-! ## Between the second and the third pallas_call -/

set_option maxHeartbeats 4000000 in
/-- The neighbours' mean of the first convolution's result. -/
theorem mid2_mean (x10 : (⟨Cert.ReferenceIdeal.S2x500000, .i32⟩ : BufTy).Contents (Elt Ideal))
    (hs : W (Proc.devRef .tc main_v1) = val_main_v1 (F := Ideal) x10) (hd : W (Proc.devRef .tc main_v3) = val_main_v3 (F := Ideal) x10) :
    StableHlo.after (hostOps2 (F := Ideal)) W (Proc.devRef .tc main_v60) = neighbourMean x10 (W (Proc.devRef .tc main_v41)) := by
  simp only [hostOps2]; after_results_simp
  rw [hs, hd]
  rfl

set_option maxHeartbeats 4000000 in
/-- The first convolution's result is not written. -/
theorem mid2_nodes : StableHlo.after (hostOps2 (F := Ideal)) W (Proc.devRef .tc main_v41) = W (Proc.devRef .tc main_v41) := by
  simp only [hostOps2]; after_results_simp

set_option maxHeartbeats 4000000 in
/-- The neighbours' weights converted to bf16. -/
theorem mid2_weightsL (i : S256x256.Idx) :
    (StableHlo.after (hostOps2 (F := Ideal)) W (Proc.devRef .tc main_v61) : S256x256.Idx → EReal) i = (W (Proc.devRef .tc main_arg7) : S256x256.Idx → EReal) i := by
  simp only [hostOps2]; after_results_simp; rfl

set_option maxHeartbeats 4000000 in
/-- The nodes' own weights converted to bf16. -/
theorem mid2_weightsR (i : S256x256.Idx) :
    (StableHlo.after (hostOps2 (F := Ideal)) W (Proc.devRef .tc main_v62) : S256x256.Idx → EReal) i = (W (Proc.devRef .tc main_arg9) : S256x256.Idx → EReal) i := by
  simp only [hostOps2]; after_results_simp; rfl

set_option maxHeartbeats 4000000 in
/-- The bias as one row. -/
theorem mid2_bias (j : Fin 256) :
    (StableHlo.after (hostOps2 (F := Ideal)) W (Proc.devRef .tc main_v63) : S1x256.Idx → EReal) (ix2 (0 : Fin 1) j) = (W (Proc.devRef .tc main_arg8) : S256.Idx → EReal) (ix1 j) := by
  simp only [hostOps2]; after_results_simp
  exact shapeCast_apply _ shapeCasts_S256_S1x256 (ix2 (0 : Fin 1) j) (ix1 j) (by
    rw [Shape.rowMajor_val_two, Shape.rowMajor_val_one]; show j.val = 0 * 256 + j.val; omega)

end Cert.KernelIdeal.Fold

end
-- ==== Proof.KPayload.lean ====
/-
  The three kernel bodies' stored values at the extended reals, read at one entry (r, j) of a 2000-row block:
  a change of float format is the identity, a matrix product into a zero accumulator is the plain sum over the
  contracted feature, and the bias row is laid along every row.
-/
import proofs.«101127_j36988258353722_1_alg».proof.Proof.Gen.KernelIdeal.Skeleton
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Payload

open Cert.KernelIdeal Cert.KernelIdeal.Gen Idealize.ShloMosaic Idealize.ShloMosaic.ValueIdx

/-- The left operand's index of the block product, on the row axis: the output's row. -/
private theorem lhs_blockDot_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's index on the feature axis: the contracted index. -/
private theorem lhs_blockDot_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's index on the feature axis: the contracted index. -/
private theorem rhs_blockDot_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's index on the column axis: the output's column. -/
private theorem rhs_blockDot_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block product at the extended reals: entry (r, j) is the sum over the feature k of a[r, k] · w[k, j]. -/
theorem blockDot_apply (a : FVec Ideal S2000x256 .bf16) (w : FVec Ideal S256x256 .bf16) (r : Fin 2000) (j : Fin 256) :
    matmul dot_S2000x256_S256x256_S2000x256_1_0_0_1_n_n none a w (constant (F := Ideal) S2000x256 .f32 0x00000000#32) (ix2 r j)
      = ∑ k : Fin 256, a (ix2 r k) * w (ix2 k j) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 r j) ((ValueIdx.contrEquiv1 dot_S2000x256_S256x256_S2000x256_1_0_0_1_n_n 256 rfl rfl).symm k) = ix2 r k := funext fun c => Fin.ext (by
    match c with
    | ⟨0, _⟩ => exact lhs_blockDot_0 _ _
    | ⟨1, _⟩ => exact (lhs_blockDot_1 _ _).trans hk)
  have er : dot_S2000x256_S256x256_S2000x256_1_0_0_1_n_n.rhsIdx (ix2 r j) ((ValueIdx.contrEquiv1 dot_S2000x256_S256x256_S2000x256_1_0_0_1_n_n 256 rfl rfl).symm k) = ix2 k j := funext fun c => Fin.ext (by
    match c with
    | ⟨0, _⟩ => exact (rhs_blockDot_0 _ _).trans hk
    | ⟨1, _⟩ => exact rhs_blockDot_1 _ _)
  rw [el, er]

/-- The first layer's block: (x + e) · w + b at (r, j). -/
theorem k0_pay1_apply (v0 v1 : FVec Ideal S2000x256 .f32) (v5 : FVec Ideal S256x256 .bf16) (v8 : FVec Ideal S1x256 .f32)
    (r : Fin 2000) (j : Fin 256) :
    k0_pay1 (F := Ideal) v0 v1 v5 v8 (ix2 r j)
      = (∑ k : Fin 256, (v0 (ix2 r k) + v1 (ix2 r k)) * v5 (ix2 k j)) + v8 (ix2 (0 : Fin 1) j) := by
  unfold k0_pay1
  rw [shapeCast_self v1, shapeCast_self v5, shapeCast_self v8]
  rw [ValueIdx.addf_apply, blockDot_apply, broadcastTo_1b_ab_apply]
  rfl

/-- The convolution's block followed by the positive part. -/
theorem k1_pay1_apply (v0 v3 : FVec Ideal S2000x256 .f32) (v6 v9 : FVec Ideal S256x256 .bf16) (v13 : FVec Ideal S1x256 .f32)
    (r : Fin 2000) (j : Fin 256) :
    k1_pay1 (F := Ideal) v0 v3 v6 v9 v13 (ix2 r j)
      = max ((∑ k : Fin 256, v0 (ix2 r k) * v6 (ix2 k j)) + (∑ k : Fin 256, v3 (ix2 r k) * v9 (ix2 k j)) + v13 (ix2 (0 : Fin 1) j)) 0 := by
  unfold k1_pay1
  rw [shapeCast_self v0, shapeCast_self v3, shapeCast_self v6, shapeCast_self v9, shapeCast_self v13]
  rw [ValueIdx.maximumf_apply, ValueIdx.addf_apply, ValueIdx.addf_apply, blockDot_apply, blockDot_apply,
    broadcastTo_1b_ab_apply, ValueIdx.broadcast_apply]
  show max _ (Ideal.ofBits .f32 0x00000000#32) = _
  rw [Ideal.ofBits_zero_f32]
  rfl

/-- The convolution's block. -/
theorem k2_pay1_apply (v0 v3 : FVec Ideal S2000x256 .f32) (v6 v9 : FVec Ideal S256x256 .bf16) (v13 : FVec Ideal S1x256 .f32)
    (r : Fin 2000) (j : Fin 256) :
    k2_pay1 (F := Ideal) v0 v3 v6 v9 v13 (ix2 r j)
      = (∑ k : Fin 256, v0 (ix2 r k) * v6 (ix2 k j)) + (∑ k : Fin 256, v3 (ix2 r k) * v9 (ix2 k j)) + v13 (ix2 (0 : Fin 1) j) := by
  unfold k2_pay1
  rw [shapeCast_self v0, shapeCast_self v3, shapeCast_self v6, shapeCast_self v9, shapeCast_self v13]
  rw [ValueIdx.addf_apply, ValueIdx.addf_apply, blockDot_apply, blockDot_apply, broadcastTo_1b_ab_apply]
  rfl

end Cert.KernelIdeal.Payload

end
-- ==== Proof.Spec.lean ====
/-
  The three dense layers of the node update, as functions of whole arrays read index by index on the extended reals.
  Nodes carry 256 features; a layer multiplies each node's feature row by a 256 × 256 weight matrix and adds a bias row:
    update   x e w b      = (x + e) · w + b
    conv     a x wl wr b  = (a · wl + x · wr) + b
    convRelu a x wl wr b  = max (conv a x wl wr b) 0
  The sum of a row against a column runs over the 256 features in any order and any grouping: on the extended reals
  addition is commutative and associative, at the infinities too, so no finiteness is used anywhere.
-/
import Idealize.ShloMosaic.PureOps.Ideal
import Idealize.ShloMosaic.Lib.ValueIdx

noncomputable section

namespace Cert.GraphLayers

open Idealize.ShloMosaic Idealize.ShloMosaic.ValueIdx

/-- One row of 256 features per node. -/
abbrev Nodes : Shape := ⟨2, ![50000, 256]⟩
/-- A square weight matrix: feature in, feature out. -/
abbrev Square : Shape := ⟨2, ![256, 256]⟩

/-- Row `r` of `a` against column `j` of `w`: the sum over the contracted feature `k` of `a[r, k] · w[k, j]`. -/
def rowDot (a : Nodes.Idx → EReal) (w : Square.Idx → EReal) (r : Fin 50000) (j : Fin 256) : EReal :=
  ∑ k : Fin 256, a (ix2 r k) * w (ix2 k j)

/-- The first layer: the node features plus the mean of the incoming edge features, through one linear map. -/
def update (x e : Nodes.Idx → EReal) (w : Square.Idx → EReal) (b : Fin 256 → EReal) : Nodes.Idx → EReal :=
  fun i => rowDot (fun q => x q + e q) w (i 0) (i 1) + b (i 1)

/-- A graph convolution: the neighbours' mean through one linear map, the node's own features through another, and a bias. -/
def conv (a x : Nodes.Idx → EReal) (wl wr : Square.Idx → EReal) (b : Fin 256 → EReal) : Nodes.Idx → EReal :=
  fun i => rowDot a wl (i 0) (i 1) + rowDot x wr (i 0) (i 1) + b (i 1)

/-- The same followed by the positive part. -/
def convRelu (a x : Nodes.Idx → EReal) (wl wr : Square.Idx → EReal) (b : Fin 256 → EReal) : Nodes.Idx → EReal :=
  fun i => max (conv a x wl wr b i) 0

/-- The bias may be added before or after the second product: addition on the extended reals is commutative and
    associative. -/
theorem add_bias_comm (p q b : EReal) : p + b + q = p + q + b := add_right_comm p b q

end Cert.GraphLayers

end
-- ==== Proof.Region0.lean ====
/-
  The first pallas_call's output array after its 25 grid points: point t writes rows 2000·t … 2000·t + 1999, the blocks tile the 50000 rows, and each written entry is the first layer at that row and column of the arrays the region was entered with.
-/
import proofs.«101127_j36988258353722_1_alg».proof.Proof.Gen.KernelIdeal.Frame
import proofs.«101127_j36988258353722_1_alg».proof.Proof.KPayload
import proofs.«101127_j36988258353722_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every block of this region starts its rectangle at the origin of its staging buffer. -/
private theorem unit_offsets : (![0, 0] : Fin 2 → Nat) = fun _ => 0 := funext fun a => by fin_cases a <;> rfl

/-- The block indices, decided over the 25 grid points: at point t the two 2000-row input windows and the output window
    sit at block (t, 0); the weights and the bias row, each one whole block, sit at block (0, 0). -/
private theorem block_indices : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- 25 blocks of 2000 rows: row r of block t is row 2000·t + r, below 50000. -/
private theorem row_lt (t : Fin cfg0.N) (r : Fin 2000) : 2000 * t.val + r.val < 50000 := by
  have ht : t.val < 25 := lt_of_lt_of_eq t.isLt N_0
  have hr : r.val < 2000 := r.isLt
  omega

/-- Entry (r, j) of the output's block at point t is entry (2000·t + r, j) of the output array: a block's coordinate is
    its index times its extent plus the coordinate inside it. -/
private theorem outBlock_emb (t : Fin cfg0.N) (r : Fin 2000) (j : Fin 256) :
    ((cfg0.win 4).blk t).view.emb (ix2 r j) = (ix2 ⟨2000 * t.val + r.val, row_lt t r⟩ j : S50000x256.Idx) := by
  obtain ⟨e0, e1, -⟩ := block_indices t
  funext a; apply Fin.ext
  match a with
  | ⟨0, _⟩ => show win0_4.index t (0 : Fin 2) * 2000 + 1 * r.val = 2000 * t.val + r.val; omega
  | ⟨1, _⟩ => show win0_4.index t (1 : Fin 2) * 256 + 1 * j.val = j.val; omega

/-- The node-feature block at point t is rows 2000·t … 2000·t + 1999 of the node features. -/
private theorem nodeBlock_apply (c : Dev nD) (t : Fin cfg0.N) (r : Fin 2000) (k : Fin 256) :
    (iblk0 (F := Ideal) V c 0 t : FVec Ideal S2000x256 .f32) (ix2 r k)
      = (V c main_arg0 : S50000x256.Idx → EReal) (ix2 ⟨2000 * t.val + r.val, row_lt t r⟩ k) := by
  obtain ⟨-, -, e0, e1, -⟩ := block_indices t
  show V c main_arg0 (((cfg0.win 0).blk t).view.emb (ix2 r k)) = V c main_arg0 (ix2 ⟨2000 * t.val + r.val, row_lt t r⟩ k)
  refine congrArg (V c main_arg0) ?_
  funext a; apply Fin.ext
  match a with
  | ⟨0, _⟩ => show win0_0.index t (0 : Fin 2) * 2000 + 1 * r.val = 2000 * t.val + r.val; omega
  | ⟨1, _⟩ => show win0_0.index t (1 : Fin 2) * 256 + 1 * k.val = k.val; omega

/-- The edge-mean block at point t is the same rows of the edge mean. -/
private theorem edgeBlock_apply (c : Dev nD) (t : Fin cfg0.N) (r : Fin 2000) (k : Fin 256) :
    (iblk0 (F := Ideal) V c 1 t : FVec Ideal S2000x256 .f32) (ix2 r k)
      = (V c main_v15 : S50000x256.Idx → EReal) (ix2 ⟨2000 * t.val + r.val, row_lt t r⟩ k) := by
  obtain ⟨-, -, -, -, e0, e1, -⟩ := block_indices t
  show V c main_v15 (((cfg0.win 1).blk t).view.emb (ix2 r k)) = V c main_v15 (ix2 ⟨2000 * t.val + r.val, row_lt t r⟩ k)
  refine congrArg (V c main_v15) ?_
  funext a; apply Fin.ext
  match a with
  | ⟨0, _⟩ => show win0_1.index t (0 : Fin 2) * 2000 + 1 * r.val = 2000 * t.val + r.val; omega
  | ⟨1, _⟩ => show win0_1.index t (1 : Fin 2) * 256 + 1 * k.val = k.val; omega

/-- The weights' one block is the whole weight matrix, at every point. -/
private theorem weightBlock_apply (c : Dev nD) (t : Fin cfg0.N) (k j : Fin 256) :
    (iblk0 (F := Ideal) V c 2 t : FVec Ideal S256x256 .bf16) (ix2 k j)
      = (V c main_v16 : S256x256.Idx → EReal) (ix2 k j) := by
  obtain ⟨-, -, -, -, -, -, e0, e1, -⟩ := block_indices t
  show V c main_v16 (((cfg0.win 2).blk t).view.emb (ix2 k j)) = V c main_v16 (ix2 k j)
  refine congrArg (V c main_v16) ?_
  funext a; apply Fin.ext
  match a with
  | ⟨0, _⟩ => show win0_2.index t (0 : Fin 2) * 256 + 1 * k.val = k.val; omega
  | ⟨1, _⟩ => show win0_2.index t (1 : Fin 2) * 256 + 1 * j.val = j.val; omega

/-- The bias's one block is its one row, at every point. -/
private theorem biasBlock_apply (c : Dev nD) (t : Fin cfg0.N) (j : Fin 256) :
    (iblk0 (F := Ideal) V c 3 t : FVec Ideal S1x256 .f32) (ix2 (0 : Fin 1) j)
      = (V c main_v17 : S1x256.Idx → EReal) (ix2 (0 : Fin 1) j) := by
  obtain ⟨-, -, -, -, -, -, -, -, e0, e1⟩ := block_indices t
  show V c main_v17 (((cfg0.win 3).blk t).view.emb (ix2 (0 : Fin 1) j)) = V c main_v17 (ix2 (0 : Fin 1) j)
  refine congrArg (V c main_v17) ?_
  funext a; apply Fin.ext
  match a with
  | ⟨0, _⟩ => show win0_3.index t (0 : Fin 2) * 1 + 1 * 0 = 0; omega
  | ⟨1, _⟩ => show win0_3.index t (1 : Fin 2) * 256 + 1 * j.val = j.val; omega

/-- What point t writes back is block t of the first layer of the arrays the region was entered with: the body's value at
    (r, j) of the block is the row 2000·t + r of (features + edge mean) against column j of the weights, plus the bias at j. -/
private theorem flushed_eq (c : Dev nD) (t : Fin cfg0.N) :
    (dat0 (F := Ideal) V c).flushed 4 t = ((cfg0.win 4).blk t).view.read (Elt Ideal)
      (GraphLayers.update (V c main_arg0) (V c main_v15) (V c main_v16) (fun j => V c main_v17 (ix2 (0 : Fin 1) j))) := by
  show (cfg0.win 4).cut (grid0.coords t) ((dat0 (F := Ideal) V c).after 4 t) = _
  rw [after0_4]
  unfold out0_4
  rw [View.canon_unit_zero unit_offsets]
  simp only [View.ld_unit_zero (S := S2000x256) unit_offsets, View.ld_unit_zero (S := S256x256) unit_offsets, View.ld_unit_zero (S := S1x256) unit_offsets]
  funext y
  obtain ⟨r, j, rfl⟩ : ∃ (r : Fin 2000) (j : Fin 256), y = ix2 r j := ⟨y 0, y 1, eq_ix2 y⟩
  show k0_pay1 (F := Ideal) (iblk0 V c 0 t) (iblk0 V c 1 t) (iblk0 V c 2 t) (iblk0 V c 3 t) (ix2 r j)
    = GraphLayers.update (V c main_arg0) (V c main_v15) (V c main_v16) (fun j => V c main_v17 (ix2 (0 : Fin 1) j)) (((cfg0.win 4).blk t).view.emb (ix2 r j))
  refine (Payload.k0_pay1_apply (iblk0 V c 0 t) (iblk0 V c 1 t) (iblk0 V c 2 t) (iblk0 V c 3 t) r j).trans ?_
  rw [outBlock_emb t r j]
  unfold GraphLayers.update GraphLayers.rowDot
  refine congrArg₂ (fun a b : EReal => a + b) (Finset.sum_congr rfl fun k _ => ?_) (biasBlock_apply V c t j)
  exact congrArg₂ (fun a b : EReal => a * b)
    (congrArg₂ (fun a b : EReal => a + b) (nodeBlock_apply V c t r k) (edgeBlock_apply V c t r k)) (weightBlock_apply V c t k j)

/-- An entry of the output array is in point t's block iff each of its coordinates is in the block's range on that axis. -/
private theorem mem_outBlock (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v18).slice (win0_4.rect t)).set ↔ _
  rw [View.set_slice_whole, Rect.mem_set_unit]
  exact Iff.rfl

/-- The blocks tile the array: row i₀ lies in the block of point ⌊i₀ / 2000⌋, one of the 25, and every point writes back. -/
private theorem rows_covered (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by rw [show cfg0.N = 25 from N_0]; omega⟩, rfl⟩
  obtain ⟨e0, e1, -⟩ := block_indices t
  refine ⟨t, flush0_4 t, ?_⟩
  rw [mem_outBlock]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

/-- The first region's output array, whole: `update` of the four arrays it was entered with (the weights as staged,
    the bias as its one row). -/
theorem final0 (c : Dev nD) :
    (dat0 (F := Ideal) V c).arrAt 4 cfg0.N
      = GraphLayers.update (V c main_arg0) (V c main_v15) (V c main_v16) (fun j => V c main_v17 (ix2 (0 : Fin 1) j)) :=
  (dat0 (F := Ideal) V c).arrAt_eq_of_cover 4 _ (fun t _ => flushed_eq V c t) rows_covered

end Cert.KernelIdeal.Blocks

end
-- ==== Proof.Region1.lean ====
/-
  The second pallas_call's output array after its 25 grid points: the convolution with the positive part, at every row and column, of the arrays the region was entered with.
-/
import proofs.«101127_j36988258353722_1_alg».proof.Proof.Gen.KernelIdeal.Frame
import proofs.«101127_j36988258353722_1_alg».proof.Proof.KPayload
import proofs.«101127_j36988258353722_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access, however they are spelt. -/
private theorem zeroOffsets1 : (![0, 0] : Fin 2 → Nat) = fun _ => 0 := funext fun a => by fin_cases a <;> rfl

/-- Where each window's block sits at grid point t: the output block and the two 2000-row input blocks are the t-th
    row block; the weight matrices and the bias row are whole, at block 0. -/
private theorem blockIndex1 : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row r of the t-th block of the neighbours' mean is row 2000 t + r of the array. -/
private theorem meanBlock1 (c : Dev nD) (t : Fin cfg1.N) (r : Fin 2000) (k : Fin 256) (h : 2000 * t.val + r.val < 50000) :
    (iblk1 (F := Ideal) V c 0 t : FVec Ideal S2000x256 .f32) (ix2 r k)
      = (V c main_v37 : S50000x256.Idx → EReal) (ix2 ⟨2000 * t.val + r.val, h⟩ k) := by
  obtain ⟨-, -, e0, e1, -⟩ := blockIndex1 t
  unfold iblk1
  rw [View.read_apply]
  show V c main_v37 (((cfg1.win 0).blk t).view.emb (ix2 r k)) = V c main_v37 (ix2 ⟨2000 * t.val + r.val, h⟩ k)
  refine congrArg _ ?_
  funext a
  apply Fin.ext
  match a with
  | ⟨0, _⟩ => show win1_0.index t (0 : Fin 2) * 2000 + 1 * r.val = 2000 * t.val + r.val; omega
  | ⟨1, _⟩ => show win1_0.index t (1 : Fin 2) * 256 + 1 * k.val = k.val; omega

/-- Row r of the t-th block of the node features is row 2000 t + r of the array. -/
private theorem nodeBlock1 (c : Dev nD) (t : Fin cfg1.N) (r : Fin 2000) (k : Fin 256) (h : 2000 * t.val + r.val < 50000) :
    (iblk1 (F := Ideal) V c 1 t : FVec Ideal S2000x256 .f32) (ix2 r k)
      = (V c main_v18 : S50000x256.Idx → EReal) (ix2 ⟨2000 * t.val + r.val, h⟩ k) := by
  obtain ⟨-, -, -, -, e0, e1, -⟩ := blockIndex1 t
  unfold iblk1
  rw [View.read_apply]
  show V c main_v18 (((cfg1.win 1).blk t).view.emb (ix2 r k)) = V c main_v18 (ix2 ⟨2000 * t.val + r.val, h⟩ k)
  refine congrArg _ ?_
  funext a
  apply Fin.ext
  match a with
  | ⟨0, _⟩ => show win1_1.index t (0 : Fin 2) * 2000 + 1 * r.val = 2000 * t.val + r.val; omega
  | ⟨1, _⟩ => show win1_1.index t (1 : Fin 2) * 256 + 1 * k.val = k.val; omega

/-- The neighbours' weights are staged whole at every point. -/
private theorem meanWeights1 (c : Dev nD) (t : Fin cfg1.N) (k j : Fin 256) :
    (iblk1 (F := Ideal) V c 2 t : FVec Ideal S256x256 .bf16) (ix2 k j)
      = (V c main_v38 : S256x256.Idx → EReal) (ix2 k j) := by
  obtain ⟨-, -, -, -, -, -, e0, e1, -⟩ := blockIndex1 t
  unfold iblk1
  rw [View.read_apply]
  show V c main_v38 (((cfg1.win 2).blk t).view.emb (ix2 k j)) = V c main_v38 (ix2 k j)
  refine congrArg _ ?_
  funext a
  apply Fin.ext
  match a with
  | ⟨0, _⟩ => show win1_2.index t (0 : Fin 2) * 256 + 1 * k.val = k.val; omega
  | ⟨1, _⟩ => show win1_2.index t (1 : Fin 2) * 256 + 1 * j.val = j.val; omega

/-- The bias row is staged whole at every point. -/
private theorem biasRow1 (c : Dev nD) (t : Fin cfg1.N) (j : Fin 256) :
    (iblk1 (F := Ideal) V c 3 t : FVec Ideal S1x256 .f32) (ix2 (0 : Fin 1) j)
      = (V c main_v40 : S1x256.Idx → EReal) (ix2 (0 : Fin 1) j) := by
  obtain ⟨-, -, -, -, -, -, -, -, e0, e1, -⟩ := blockIndex1 t
  unfold iblk1
  rw [View.read_apply]
  show V c main_v40 (((cfg1.win 3).blk t).view.emb (ix2 (0 : Fin 1) j)) = V c main_v40 (ix2 (0 : Fin 1) j)
  refine congrArg _ ?_
  funext a
  apply Fin.ext
  match a with
  | ⟨0, _⟩ => show win1_3.index t (0 : Fin 2) * 1 + 1 * 0 = 0; omega
  | ⟨1, _⟩ => show win1_3.index t (1 : Fin 2) * 256 + 1 * j.val = j.val; omega

/-- The nodes' own weights are staged whole at every point. -/
private theorem nodeWeights1 (c : Dev nD) (t : Fin cfg1.N) (k j : Fin 256) :
    (iblk1 (F := Ideal) V c 4 t : FVec Ideal S256x256 .bf16) (ix2 k j)
      = (V c main_v39 : S256x256.Idx → EReal) (ix2 k j) := by
  obtain ⟨-, -, -, -, -, -, -, -, -, -, e0, e1⟩ := blockIndex1 t
  unfold iblk1
  rw [View.read_apply]
  show V c main_v39 (((cfg1.win 4).blk t).view.emb (ix2 k j)) = V c main_v39 (ix2 k j)
  refine congrArg _ ?_
  funext a
  apply Fin.ext
  match a with
  | ⟨0, _⟩ => show win1_4.index t (0 : Fin 2) * 256 + 1 * k.val = k.val; omega
  | ⟨1, _⟩ => show win1_4.index t (1 : Fin 2) * 256 + 1 * j.val = j.val; omega

/-- Entry (r, j) of the t-th output block is entry (2000 t + r, j) of the output array. -/
private theorem outBlock1 (t : Fin cfg1.N) (r : Fin 2000) (j : Fin 256) (h : 2000 * t.val + r.val < 50000) :
    ((cfg1.win 5).blk t).view.emb (ix2 r j) = (ix2 ⟨2000 * t.val + r.val, h⟩ j : S50000x256.Idx) := by
  obtain ⟨e0, e1, -⟩ := blockIndex1 t
  funext a
  apply Fin.ext
  match a with
  | ⟨0, _⟩ => show win1_5.index t (0 : Fin 2) * 2000 + 1 * r.val = 2000 * t.val + r.val; omega
  | ⟨1, _⟩ => show win1_5.index t (1 : Fin 2) * 256 + 1 * j.val = j.val; omega

/-- What grid point t writes back is the t-th row block of the convolution with the positive part. -/
private theorem writtenBlock1 (c : Dev nD) (t : Fin cfg1.N) :
    (dat1 (F := Ideal) V c).flushed 5 t = ((cfg1.win 5).blk t).view.read (Elt Ideal)
      (GraphLayers.convRelu (V c main_v37) (V c main_v18) (V c main_v38) (V c main_v39) (fun j => V c main_v40 (ix2 (0 : Fin 1) j))) := by
  show (cfg1.win 5).cut (grid1.coords t) ((dat1 (F := Ideal) V c).after 5 t) = _
  rw [after1_5]
  unfold out1_5
  rw [View.canon_unit_zero zeroOffsets1]
  simp only [View.ld_unit_zero (S := S2000x256) zeroOffsets1, View.ld_unit_zero (S := S256x256) zeroOffsets1, View.ld_unit_zero (S := S1x256) zeroOffsets1]
  funext y
  obtain ⟨r, j, rfl⟩ : ∃ (r : Fin 2000) (j : Fin 256), y = ix2 r j := ⟨y 0, y 1, eq_ix2 y⟩
  have hN : grid1.N = 25 := N_1
  have ht : t.val < 25 := lt_of_lt_of_eq t.isLt hN
  have hr : r.val < 2000 := r.isLt
  have h : 2000 * t.val + r.val < 50000 := by omega
  show k1_pay1 (F := Ideal) (iblk1 V c 0 t) (iblk1 V c 1 t) (iblk1 V c 2 t) (iblk1 V c 4 t) (iblk1 V c 3 t) (ix2 r j)
    = GraphLayers.convRelu (V c main_v37) (V c main_v18) (V c main_v38) (V c main_v39) (fun j => V c main_v40 (ix2 (0 : Fin 1) j))
        (((cfg1.win 5).blk t).view.emb (ix2 r j))
  rw [outBlock1 t r j h]
  refine (Payload.k1_pay1_apply (iblk1 V c 0 t) (iblk1 V c 1 t) (iblk1 V c 2 t) (iblk1 V c 4 t) (iblk1 V c 3 t) r j).trans ?_
  show _ = max (GraphLayers.rowDot (V c main_v37) (V c main_v38) ⟨2000 * t.val + r.val, h⟩ j
      + GraphLayers.rowDot (V c main_v18) (V c main_v39) ⟨2000 * t.val + r.val, h⟩ j + V c main_v40 (ix2 (0 : Fin 1) j)) 0
  unfold GraphLayers.rowDot
  refine congrArg (fun z => max z 0) ?_
  refine congrArg₂ (· + ·) (congrArg₂ (· + ·) (Finset.sum_congr rfl fun k _ => ?_) (Finset.sum_congr rfl fun k _ => ?_)) ?_
  · exact congrArg₂ (· * ·) (meanBlock1 V c t r k h) (meanWeights1 V c t k j)
  · exact congrArg₂ (· * ·) (nodeBlock1 V c t r k h) (nodeWeights1 V c t k j)
  · exact biasRow1 V c t j

/-- An index of the output array is in the t-th block iff each coordinate is in the block's range on its axis. -/
private theorem memBlock1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v41).slice (win1_5.rect t)).set ↔ _
  rw [View.set_slice_whole, Rect.mem_set_unit]
  exact Iff.rfl

/-- The 25 blocks of 2000 rows tile the 50000 rows: row i₀ lies in the block of the point ⌊i₀ / 2000⌋. -/
private theorem coveredRows1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : grid1.N = 25 := N_1
  obtain ⟨t, ht⟩ : ∃ t : Fin cfg1.N, t.val = (i 0).val / 2000 :=
    ⟨⟨(i 0).val / 2000, by show (i 0).val / 2000 < grid1.N; rw [hN]; omega⟩, rfl⟩
  refine ⟨t, flush1_5 t, ?_⟩
  rw [memBlock1]
  obtain ⟨e0, e1, -⟩ := blockIndex1 t
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The second region's output array, whole. Its windows in operand order: neighbours' mean, node features, the
    neighbours' weights, the bias row, the nodes' own weights. -/
theorem final1 (c : Dev nD) :
    (dat1 (F := Ideal) V c).arrAt 5 cfg1.N
      = GraphLayers.convRelu (V c main_v37) (V c main_v18) (V c main_v38) (V c main_v39) (fun j => V c main_v40 (ix2 (0 : Fin 1) j)) :=
  (dat1 (F := Ideal) V c).arrAt_eq_of_cover 5
    (GraphLayers.convRelu (V c main_v37) (V c main_v18) (V c main_v38) (V c main_v39) (fun j => V c main_v40 (ix2 (0 : Fin 1) j)))
    (fun t _ => writtenBlock1 V c t) coveredRows1

end Cert.KernelIdeal.Blocks

end
-- ==== Proof.Region2.lean ====
/-
  The third pallas_call's output array after its 25 grid points: the convolution, with no positive part, at every row and column, of the arrays the region was entered with.
-/
import proofs.«101127_j36988258353722_1_alg».proof.Proof.Gen.KernelIdeal.Frame
import proofs.«101127_j36988258353722_1_alg».proof.Proof.KPayload
import proofs.«101127_j36988258353722_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access, however they are spelt. -/
private theorem zeroOffsets2 : (![0, 0] : Fin 2 → Nat) = fun _ => 0 := funext fun a => by fin_cases a <;> rfl

/-- Where each window's block sits at grid point t: the output block and the two 2000-row input blocks are the t-th
    row block; the weight matrices and the bias row are whole, at block 0. -/
private theorem blockIndex2 : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row r of the t-th block of the neighbours' mean is row 2000 t + r of the array. -/
private theorem meanBlock2 (c : Dev nD) (t : Fin cfg2.N) (r : Fin 2000) (k : Fin 256) (h : 2000 * t.val + r.val < 50000) :
    (iblk2 (F := Ideal) V c 0 t : FVec Ideal S2000x256 .f32) (ix2 r k)
      = (V c main_v60 : S50000x256.Idx → EReal) (ix2 ⟨2000 * t.val + r.val, h⟩ k) := by
  obtain ⟨-, -, e0, e1, -⟩ := blockIndex2 t
  unfold iblk2
  rw [View.read_apply]
  show V c main_v60 (((cfg2.win 0).blk t).view.emb (ix2 r k)) = V c main_v60 (ix2 ⟨2000 * t.val + r.val, h⟩ k)
  refine congrArg _ ?_
  funext a
  apply Fin.ext
  match a with
  | ⟨0, _⟩ => show win2_0.index t (0 : Fin 2) * 2000 + 1 * r.val = 2000 * t.val + r.val; omega
  | ⟨1, _⟩ => show win2_0.index t (1 : Fin 2) * 256 + 1 * k.val = k.val; omega

/-- Row r of the t-th block of the node features is row 2000 t + r of the array. -/
private theorem nodeBlock2 (c : Dev nD) (t : Fin cfg2.N) (r : Fin 2000) (k : Fin 256) (h : 2000 * t.val + r.val < 50000) :
    (iblk2 (F := Ideal) V c 1 t : FVec Ideal S2000x256 .f32) (ix2 r k)
      = (V c main_v41 : S50000x256.Idx → EReal) (ix2 ⟨2000 * t.val + r.val, h⟩ k) := by
  obtain ⟨-, -, -, -, e0, e1, -⟩ := blockIndex2 t
  unfold iblk2
  rw [View.read_apply]
  show V c main_v41 (((cfg2.win 1).blk t).view.emb (ix2 r k)) = V c main_v41 (ix2 ⟨2000 * t.val + r.val, h⟩ k)
  refine congrArg _ ?_
  funext a
  apply Fin.ext
  match a with
  | ⟨0, _⟩ => show win2_1.index t (0 : Fin 2) * 2000 + 1 * r.val = 2000 * t.val + r.val; omega
  | ⟨1, _⟩ => show win2_1.index t (1 : Fin 2) * 256 + 1 * k.val = k.val; omega

/-- The neighbours' weights are staged whole at every point. -/
private theorem meanWeights2 (c : Dev nD) (t : Fin cfg2.N) (k j : Fin 256) :
    (iblk2 (F := Ideal) V c 2 t : FVec Ideal S256x256 .bf16) (ix2 k j)
      = (V c main_v61 : S256x256.Idx → EReal) (ix2 k j) := by
  obtain ⟨-, -, -, -, -, -, e0, e1, -⟩ := blockIndex2 t
  unfold iblk2
  rw [View.read_apply]
  show V c main_v61 (((cfg2.win 2).blk t).view.emb (ix2 k j)) = V c main_v61 (ix2 k j)
  refine congrArg _ ?_
  funext a
  apply Fin.ext
  match a with
  | ⟨0, _⟩ => show win2_2.index t (0 : Fin 2) * 256 + 1 * k.val = k.val; omega
  | ⟨1, _⟩ => show win2_2.index t (1 : Fin 2) * 256 + 1 * j.val = j.val; omega

/-- The bias row is staged whole at every point. -/
private theorem biasRow2 (c : Dev nD) (t : Fin cfg2.N) (j : Fin 256) :
    (iblk2 (F := Ideal) V c 3 t : FVec Ideal S1x256 .f32) (ix2 (0 : Fin 1) j)
      = (V c main_v63 : S1x256.Idx → EReal) (ix2 (0 : Fin 1) j) := by
  obtain ⟨-, -, -, -, -, -, -, -, e0, e1, -⟩ := blockIndex2 t
  unfold iblk2
  rw [View.read_apply]
  show V c main_v63 (((cfg2.win 3).blk t).view.emb (ix2 (0 : Fin 1) j)) = V c main_v63 (ix2 (0 : Fin 1) j)
  refine congrArg _ ?_
  funext a
  apply Fin.ext
  match a with
  | ⟨0, _⟩ => show win2_3.index t (0 : Fin 2) * 1 + 1 * 0 = 0; omega
  | ⟨1, _⟩ => show win2_3.index t (1 : Fin 2) * 256 + 1 * j.val = j.val; omega

/-- The nodes' own weights are staged whole at every point. -/
private theorem nodeWeights2 (c : Dev nD) (t : Fin cfg2.N) (k j : Fin 256) :
    (iblk2 (F := Ideal) V c 4 t : FVec Ideal S256x256 .bf16) (ix2 k j)
      = (V c main_v62 : S256x256.Idx → EReal) (ix2 k j) := by
  obtain ⟨-, -, -, -, -, -, -, -, -, -, e0, e1⟩ := blockIndex2 t
  unfold iblk2
  rw [View.read_apply]
  show V c main_v62 (((cfg2.win 4).blk t).view.emb (ix2 k j)) = V c main_v62 (ix2 k j)
  refine congrArg _ ?_
  funext a
  apply Fin.ext
  match a with
  | ⟨0, _⟩ => show win2_4.index t (0 : Fin 2) * 256 + 1 * k.val = k.val; omega
  | ⟨1, _⟩ => show win2_4.index t (1 : Fin 2) * 256 + 1 * j.val = j.val; omega

/-- Entry (r, j) of the t-th output block is entry (2000 t + r, j) of the output array. -/
private theorem outBlock2 (t : Fin cfg2.N) (r : Fin 2000) (j : Fin 256) (h : 2000 * t.val + r.val < 50000) :
    ((cfg2.win 5).blk t).view.emb (ix2 r j) = (ix2 ⟨2000 * t.val + r.val, h⟩ j : S50000x256.Idx) := by
  obtain ⟨e0, e1, -⟩ := blockIndex2 t
  funext a
  apply Fin.ext
  match a with
  | ⟨0, _⟩ => show win2_5.index t (0 : Fin 2) * 2000 + 1 * r.val = 2000 * t.val + r.val; omega
  | ⟨1, _⟩ => show win2_5.index t (1 : Fin 2) * 256 + 1 * j.val = j.val; omega

/-- What grid point t writes back is the t-th row block of the convolution. -/
private theorem writtenBlock2 (c : Dev nD) (t : Fin cfg2.N) :
    (dat2 (F := Ideal) V c).flushed 5 t = ((cfg2.win 5).blk t).view.read (Elt Ideal)
      (GraphLayers.conv (V c main_v60) (V c main_v41) (V c main_v61) (V c main_v62) (fun j => V c main_v63 (ix2 (0 : Fin 1) j))) := by
  show (cfg2.win 5).cut (grid2.coords t) ((dat2 (F := Ideal) V c).after 5 t) = _
  rw [after2_5]
  unfold out2_5
  rw [View.canon_unit_zero zeroOffsets2]
  simp only [View.ld_unit_zero (S := S2000x256) zeroOffsets2, View.ld_unit_zero (S := S256x256) zeroOffsets2, View.ld_unit_zero (S := S1x256) zeroOffsets2]
  funext y
  obtain ⟨r, j, rfl⟩ : ∃ (r : Fin 2000) (j : Fin 256), y = ix2 r j := ⟨y 0, y 1, eq_ix2 y⟩
  have hN : grid2.N = 25 := N_2
  have ht : t.val < 25 := lt_of_lt_of_eq t.isLt hN
  have hr : r.val < 2000 := r.isLt
  have h : 2000 * t.val + r.val < 50000 := by omega
  show k2_pay1 (F := Ideal) (iblk2 V c 0 t) (iblk2 V c 1 t) (iblk2 V c 2 t) (iblk2 V c 4 t) (iblk2 V c 3 t) (ix2 r j)
    = GraphLayers.conv (V c main_v60) (V c main_v41) (V c main_v61) (V c main_v62) (fun j => V c main_v63 (ix2 (0 : Fin 1) j))
        (((cfg2.win 5).blk t).view.emb (ix2 r j))
  rw [outBlock2 t r j h]
  refine (Payload.k2_pay1_apply (iblk2 V c 0 t) (iblk2 V c 1 t) (iblk2 V c 2 t) (iblk2 V c 4 t) (iblk2 V c 3 t) r j).trans ?_
  show _ = GraphLayers.rowDot (V c main_v60) (V c main_v61) ⟨2000 * t.val + r.val, h⟩ j
      + GraphLayers.rowDot (V c main_v41) (V c main_v62) ⟨2000 * t.val + r.val, h⟩ j + V c main_v63 (ix2 (0 : Fin 1) j)
  unfold GraphLayers.rowDot
  refine congrArg₂ (· + ·) (congrArg₂ (· + ·) (Finset.sum_congr rfl fun k _ => ?_) (Finset.sum_congr rfl fun k _ => ?_)) ?_
  · exact congrArg₂ (· * ·) (meanBlock2 V c t r k h) (meanWeights2 V c t k j)
  · exact congrArg₂ (· * ·) (nodeBlock2 V c t r k h) (nodeWeights2 V c t k j)
  · exact biasRow2 V c t j

/-- An index of the output array is in the t-th block iff each coordinate is in the block's range on its axis. -/
private theorem memBlock2 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v64).slice (win2_5.rect t)).set ↔ _
  rw [View.set_slice_whole, Rect.mem_set_unit]
  exact Iff.rfl

/-- The 25 blocks of 2000 rows tile the 50000 rows: row i₀ lies in the block of the point ⌊i₀ / 2000⌋. -/
private theorem coveredRows2 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : grid2.N = 25 := N_2
  obtain ⟨t, ht⟩ : ∃ t : Fin cfg2.N, t.val = (i 0).val / 2000 :=
    ⟨⟨(i 0).val / 2000, by show (i 0).val / 2000 < grid2.N; rw [hN]; omega⟩, rfl⟩
  refine ⟨t, flush2_5 t, ?_⟩
  rw [memBlock2]
  obtain ⟨e0, e1, -⟩ := blockIndex2 t
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- The third region's output array, whole. Its windows in operand order: neighbours' mean, node features, the
    neighbours' weights, the bias row, the nodes' own weights. -/
theorem final2 (c : Dev nD) :
    (dat2 (F := Ideal) V c).arrAt 5 cfg2.N
      = GraphLayers.conv (V c main_v60) (V c main_v41) (V c main_v61) (V c main_v62) (fun j => V c main_v63 (ix2 (0 : Fin 1) j)) :=
  (dat2 (F := Ideal) V c).arrAt_eq_of_cover 5
    (GraphLayers.conv (V c main_v60) (V c main_v41) (V c main_v61) (V c main_v62) (fun j => V c main_v63 (ix2 (0 : Fin 1) j)))
    (fun t _ => writtenBlock2 V c t) coveredRows2

end Cert.KernelIdeal.Blocks

end
-- ==== Proof.ReferenceSide.lean ====
/-
  The reference's three dense stages at the extended reals, each as the layer function of the stages before it:
  the host's product of a whole array with a weight matrix is, entry by entry, the sum over the contracted
  feature; a bias is laid along every row; in the two convolutions the reference adds the bias before the second
  product, which the commutativity and associativity of the extended reals' addition puts after it.
-/
import proofs.«101127_j36988258353722_1_alg».proof.Proof.Gen.ReferenceIdeal.Run
import proofs.«101127_j36988258353722_1_alg».proof.Proof.Gen.ReferenceIdeal.Read
import proofs.«101127_j36988258353722_1_alg».proof.Proof.Spec
import Idealize.ShloMosaic.Lib.ValueIdx

noncomputable section

namespace Cert.ReferenceIdeal.Stages

open Cert.ReferenceIdeal Cert.ReferenceIdeal.Gen Cert.ReferenceIdeal.Read Idealize.ShloMosaic Idealize.ShloMosaic.ValueIdx

/-- Two indices of a matrix shape are equal when their two coordinates are. -/
private theorem idx2_ext {n0 n1 : Nat} {p q : (⟨2, ![n0, n1]⟩ : Shape).Idx}
    (h0 : (p 0).val = (q 0).val) (h1 : (p 1).val = (q 1).val) : p = q :=
  funext fun a => Fin.ext (by match a with | ⟨0, _⟩ => exact h0 | ⟨1, _⟩ => exact h1)

/-- The host's product read at row `r`, column `j`: when the left operand is read at `(r, k)` and the right at `(k, j)`,
    the sum over the contracted feature is the row of `a` against the column of `w`. -/
private theorem sum_eq_rowDot (a : (⟨S50000x256, .f32⟩ : BufTy).Contents (Elt Ideal)) (w : (⟨S256x256, .f32⟩ : BufTy).Contents (Elt Ideal))
    (r : Fin 50000) (j : Fin 256) (li : Fin 256 → S50000x256.Idx) (ri : Fin 256 → S256x256.Idx)
    (hl : ∀ k, li k = ix2 r k) (hr : ∀ k, ri k = ix2 k j) :
    ∑ k : Fin 256, a (li k) * w (ri k) = GraphLayers.rowDot a w r j := by
  unfold GraphLayers.rowDot
  exact Finset.sum_congr rfl fun k _ => by rw [hl k, hr k]

/-- The bias row laid along every node: read at `(r, j)` through the two broadcasts it is the bias at `j`. -/
private theorem bias_idx (j : Fin 256) (p : S256.Idx) (h : (p 0).val = j.val) : p = ix1 j :=
  funext fun a => Fin.ext (by match a with | ⟨0, _⟩ => exact h)

/-- The first layer: the node features plus the edge mean, times the weights, plus the bias. -/
theorem stage_update (x0 : (⟨S50000x256, .f32⟩ : BufTy).Contents (Elt Ideal)) (x1 : (⟨S500000x256, .f32⟩ : BufTy).Contents (Elt Ideal)) (x2 : (⟨S256x256, .f32⟩ : BufTy).Contents (Elt Ideal)) (x3 : (⟨S256, .f32⟩ : BufTy).Contents (Elt Ideal)) (x10 : (⟨S2x500000, .i32⟩ : BufTy).Contents (Elt Ideal)) :
    val_main_v20 (F := Ideal) x0 x1 x2 x3 x10
      = GraphLayers.update x0 (val_main_v15 (F := Ideal) x1 x10) x2 (fun j => x3 (ix1 j)) := by
  funext i
  obtain ⟨r, j, rfl⟩ : ∃ (r : Fin 50000) (j : Fin 256), i = ix2 r j := ⟨i 0, i 1, eq_ix2 i⟩
  have eb : idx_main_v18 (idx_main_v19 (ix2 r j)) = ix1 j := bias_idx j _ rfl
  rw [val_main_v20_apply, val_main_v17_apply, val_main_v19_apply, val_main_v18_apply, eb]
  unfold GraphLayers.update
  rw [Ideal.addf_def]
  refine congrArg₂ (· + ·) ?_ rfl
  refine Eq.trans (sum_eq_rowDot (val_main_v16 (F := Ideal) x0 x1 x10) x2 r j (lidx_main_v17 (ix2 r j)) (ridx_main_v17 (ix2 r j))
    (fun k => idx2_ext rfl rfl) (fun k => idx2_ext rfl rfl)) ?_
  refine congrArg (fun f => GraphLayers.rowDot f x2 r j) (funext fun q => ?_)
  rw [val_main_v16_apply, Ideal.addf_def]

/-- The first convolution with its positive part, over the neighbours' mean of the first layer and the first layer. -/
theorem stage_convRelu (x0 : (⟨S50000x256, .f32⟩ : BufTy).Contents (Elt Ideal)) (x1 : (⟨S500000x256, .f32⟩ : BufTy).Contents (Elt Ideal)) (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (x6 : (⟨S256x256, .f32⟩ : BufTy).Contents (Elt Ideal)) (x10 : (⟨S2x500000, .i32⟩ : BufTy).Contents (Elt Ideal)) :
    val_main_v46 (F := Ideal) x0 x1 x2 x3 x4 x5 x6 x10
      = GraphLayers.convRelu (val_main_v39 (F := Ideal) x0 x1 x2 x3 x10) (val_main_v20 (F := Ideal) x0 x1 x2 x3 x10) x4 x6 (fun j => x5 (ix1 j)) := by
  funext i
  obtain ⟨r, j, rfl⟩ : ∃ (r : Fin 50000) (j : Fin 256), i = ix2 r j := ⟨i 0, i 1, eq_ix2 i⟩
  have eb : idx_main_v41 (idx_main_v42 (ix2 r j)) = ix1 j := bias_idx j _ rfl
  have hz : (FloatOps.ofBits (F := Ideal) .f32 0x00000000#32) = (0 : EReal) := Ideal.ofBits_zero_f32
  rw [val_main_v46_apply, val_main_v45_apply, val_main_v43_apply, val_main_v40_apply, val_main_v42_apply,
    val_main_v41_apply, val_main_v44_apply, val_main_call0_v0_apply, val_main_call0_cst_apply, eb, hz]
  generalize val_main_v39 (F := Ideal) x0 x1 x2 x3 x10 = a
  generalize val_main_v20 (F := Ideal) x0 x1 x2 x3 x10 = x
  unfold GraphLayers.convRelu GraphLayers.conv
  rw [Ideal.maximumf_def, Ideal.addf_def, Ideal.addf_def]
  refine congrArg (fun t => max t 0) ?_
  refine (GraphLayers.add_bias_comm _ _ _).trans ?_
  refine congrArg₂ (· + ·) (congrArg₂ (· + ·) ?_ ?_) rfl
  · exact sum_eq_rowDot a x4 r j (lidx_main_v40 (ix2 r j)) (ridx_main_v40 (ix2 r j)) (fun k => idx2_ext rfl rfl) (fun k => idx2_ext rfl rfl)
  · exact sum_eq_rowDot x x6 r j (lidx_main_v44 (ix2 r j)) (ridx_main_v44 (ix2 r j)) (fun k => idx2_ext rfl rfl) (fun k => idx2_ext rfl rfl)

/-- The second convolution, over the neighbours' mean of the first convolution and the first convolution. -/
theorem stage_conv (x0 : (⟨S50000x256, .f32⟩ : BufTy).Contents (Elt Ideal)) (x1 : (⟨S500000x256, .f32⟩ : BufTy).Contents (Elt Ideal)) (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) (x6 x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S2x500000, .i32⟩ : BufTy).Contents (Elt Ideal)) :
    val_main_v71 (F := Ideal) x0 x1 x2 x3 x4 x5 x6 x7 x8 x9 x10
      = GraphLayers.conv (val_main_v65 (F := Ideal) x0 x1 x2 x3 x4 x5 x6 x10) (val_main_v46 (F := Ideal) x0 x1 x2 x3 x4 x5 x6 x10) x7 x9 (fun j => x8 (ix1 j)) := by
  funext i
  obtain ⟨r, j, rfl⟩ : ∃ (r : Fin 50000) (j : Fin 256), i = ix2 r j := ⟨i 0, i 1, eq_ix2 i⟩
  have eb : idx_main_v67 (idx_main_v68 (ix2 r j)) = ix1 j := bias_idx j _ rfl
  rw [val_main_v71_apply, val_main_v69_apply, val_main_v66_apply, val_main_v68_apply, val_main_v67_apply,
    val_main_v70_apply, eb]
  generalize val_main_v65 (F := Ideal) x0 x1 x2 x3 x4 x5 x6 x10 = a
  generalize val_main_v46 (F := Ideal) x0 x1 x2 x3 x4 x5 x6 x10 = x
  unfold GraphLayers.conv
  rw [Ideal.addf_def, Ideal.addf_def]
  refine (GraphLayers.add_bias_comm _ _ _).trans ?_
  refine congrArg₂ (· + ·) (congrArg₂ (· + ·) ?_ ?_) rfl
  · exact sum_eq_rowDot a x7 r j (lidx_main_v66 (ix2 r j)) (ridx_main_v66 (ix2 r j)) (fun k => idx2_ext rfl rfl) (fun k => idx2_ext rfl rfl)
  · exact sum_eq_rowDot x x9 r j (lidx_main_v70 (ix2 r j)) (ridx_main_v70 (ix2 r j)) (fun k => idx2_ext rfl rfl) (fun k => idx2_ext rfl rfl)

end Cert.ReferenceIdeal.Stages

end
-- ==== Proof.KernelValue.lean ====
/-
  The program's result array as a function of its arguments. Reading the run's segment boundaries from the last one
  back: the third pallas_call's output is the second convolution of the arrays it was entered with; of those, the
  neighbours' mean was made by the host from the second pallas_call's output over the edge list, the weights and the bias
  are the arguments; the second pallas_call's output is the first convolution with its positive part, entered likewise
  from the first pallas_call's output, which is the first layer of the arguments and the edge mean. At every step the
  array is the reference's own stage of the same arguments, so the result is the reference's last stage.
-/
import proofs.«101127_j36988258353722_1_alg».proof.Proof.Gen.KernelIdeal.Frame
import proofs.«101127_j36988258353722_1_alg».proof.Proof.Boundaries
import proofs.«101127_j36988258353722_1_alg».proof.Proof.Region0
import proofs.«101127_j36988258353722_1_alg».proof.Proof.Region1
import proofs.«101127_j36988258353722_1_alg».proof.Proof.Region2
import proofs.«101127_j36988258353722_1_alg».proof.Proof.ReferenceSide
import proofs.«101127_j36988258353722_1_alg».proof.Proof.Neighbours
import proofs.«101127_j36988258353722_1_alg».proof.Proof.Spec

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read (val_main_v1 val_main_v3 val_main_v15 val_main_v20 val_main_v39 val_main_v46 val_main_v65 val_main_v71)
open Cert.ReferenceIdeal.Stages (neighbourMean v39_eq v65_eq stage_update stage_convRelu stage_conv)
open Cert.GraphLayers

/-! ## A layer of equal arrays is the same layer -/

theorem update_congr {x x' e e' : Nodes.Idx → EReal} {w w' : Square.Idx → EReal} {b b' : Fin 256 → EReal}
    (hx : x = x') (he : e = e') (hw : ∀ i, w i = w' i) (hb : ∀ j, b j = b' j) : update x e w b = update x' e' w' b' := by
  obtain rfl := hx; obtain rfl := he
  obtain rfl : w = w' := funext hw
  obtain rfl : b = b' := funext hb
  rfl

theorem conv_congr {a a' x x' : Nodes.Idx → EReal} {wl wl' wr wr' : Square.Idx → EReal} {b b' : Fin 256 → EReal}
    (ha : a = a') (hx : x = x') (hl : ∀ i, wl i = wl' i) (hr : ∀ i, wr i = wr' i) (hb : ∀ j, b j = b' j) :
    conv a x wl wr b = conv a' x' wl' wr' b' := by
  obtain rfl := ha; obtain rfl := hx
  obtain rfl : wl = wl' := funext hl
  obtain rfl : wr = wr' := funext hr
  obtain rfl : b = b' := funext hb
  rfl

theorem convRelu_congr {a a' x x' : Nodes.Idx → EReal} {wl wl' wr wr' : Square.Idx → EReal} {b b' : Fin 256 → EReal}
    (ha : a = a') (hx : x = x') (hl : ∀ i, wl i = wl' i) (hr : ∀ i, wr i = wr' i) (hb : ∀ j, b j = b' j) :
    convRelu a x wl wr b = convRelu a' x' wl' wr' b' := by
  obtain rfl := ha; obtain rfl := hx
  obtain rfl : wl = wl' := funext hl
  obtain rfl : wr = wr' := funext hr
  obtain rfl : b = b' := funext hb
  rfl

variable (m : (ℓ : Loc nD τ sig) → Buf (Elt Ideal) ℓ) (ρ : Dev nD → PrngReg) (c : Dev nD)

/-! ## The edge list and the later layers' parameters, carried to the boundaries where they are read -/

/-- The source nodes when the second pallas_call's host operations start. -/
theorem src2 : W2 m ρ c (Proc.devRef .tc main_v1) = val_main_v1 (F := Ideal) (m ((c.tc : Thread nD τ).loc main_arg10)) :=
  (W2_of_ne m ρ c main_v1 (by decide)).trans (pre0_src (W0 m ρ c))
theorem dst2 : W2 m ρ c (Proc.devRef .tc main_v3) = val_main_v3 (F := Ideal) (m ((c.tc : Thread nD τ).loc main_arg10)) :=
  (W2_of_ne m ρ c main_v3 (by decide)).trans (pre0_dst (W0 m ρ c))
/-- The source nodes when the third pallas_call's host operations start. -/
theorem src4 : W4 m ρ c (Proc.devRef .tc main_v1) = val_main_v1 (F := Ideal) (m ((c.tc : Thread nD τ).loc main_arg10)) :=
  (W4_of_ne m ρ c main_v1 (by decide)).trans ((mid1_keepSrc (W2 m ρ c)).trans (src2 m ρ c))
theorem dst4 : W4 m ρ c (Proc.devRef .tc main_v3) = val_main_v3 (F := Ideal) (m ((c.tc : Thread nD τ).loc main_arg10)) :=
  (W4_of_ne m ρ c main_v3 (by decide)).trans ((mid1_keepDst (W2 m ρ c)).trans (dst2 m ρ c))

theorem arg4_2 : W2 m ρ c (Proc.devRef .tc main_arg4) = (m ((c.tc : Thread nD τ).loc main_arg4)) :=
  (W2_of_ne m ρ c main_arg4 (by decide)).trans (pre0_keep4 (W0 m ρ c))
theorem arg5_2 : W2 m ρ c (Proc.devRef .tc main_arg5) = (m ((c.tc : Thread nD τ).loc main_arg5)) :=
  (W2_of_ne m ρ c main_arg5 (by decide)).trans (pre0_keep5 (W0 m ρ c))
theorem arg6_2 : W2 m ρ c (Proc.devRef .tc main_arg6) = (m ((c.tc : Thread nD τ).loc main_arg6)) :=
  (W2_of_ne m ρ c main_arg6 (by decide)).trans (pre0_keep6 (W0 m ρ c))
theorem arg7_2 : W2 m ρ c (Proc.devRef .tc main_arg7) = (m ((c.tc : Thread nD τ).loc main_arg7)) :=
  (W2_of_ne m ρ c main_arg7 (by decide)).trans (pre0_keep7 (W0 m ρ c))
theorem arg8_2 : W2 m ρ c (Proc.devRef .tc main_arg8) = (m ((c.tc : Thread nD τ).loc main_arg8)) :=
  (W2_of_ne m ρ c main_arg8 (by decide)).trans (pre0_keep8 (W0 m ρ c))
theorem arg9_2 : W2 m ρ c (Proc.devRef .tc main_arg9) = (m ((c.tc : Thread nD τ).loc main_arg9)) :=
  (W2_of_ne m ρ c main_arg9 (by decide)).trans (pre0_keep9 (W0 m ρ c))
theorem arg7_4 : W4 m ρ c (Proc.devRef .tc main_arg7) = (m ((c.tc : Thread nD τ).loc main_arg7)) :=
  (W4_of_ne m ρ c main_arg7 (by decide)).trans ((mid1_keep7 (W2 m ρ c)).trans (arg7_2 m ρ c))
theorem arg8_4 : W4 m ρ c (Proc.devRef .tc main_arg8) = (m ((c.tc : Thread nD τ).loc main_arg8)) :=
  (W4_of_ne m ρ c main_arg8 (by decide)).trans ((mid1_keep8 (W2 m ρ c)).trans (arg8_2 m ρ c))
theorem arg9_4 : W4 m ρ c (Proc.devRef .tc main_arg9) = (m ((c.tc : Thread nD τ).loc main_arg9)) :=
  (W4_of_ne m ρ c main_arg9 (by decide)).trans ((mid1_keep9 (W2 m ρ c)).trans (arg9_2 m ρ c))

/-! ## The three outputs -/

/-- The first pallas_call's output is the reference's first layer of the arguments. -/
theorem layer1 : W2 m ρ c (Proc.devRef .tc main_v18) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) :=
  calc W2 m ρ c (Proc.devRef .tc main_v18)
    _ = (dat0 (V1 m ρ) c).arrAt 4 cfg0.N := W2_arr m ρ c 4
    _ = update (V1 m ρ c main_arg0) (V1 m ρ c main_v15) (V1 m ρ c main_v16) (fun j => V1 m ρ c main_v17 (ix2 (0 : Fin 1) j)) :=
        Blocks.final0 (V1 m ρ) c
    _ = update (m ((c.tc : Thread nD τ).loc main_arg0)) (val_main_v15 (F := Ideal) (m ((c.tc : Thread nD τ).loc main_arg1)) (m ((c.tc : Thread nD τ).loc main_arg10))) (m ((c.tc : Thread nD τ).loc main_arg2)) (fun j => (m ((c.tc : Thread nD τ).loc main_arg3)) (ix1 j)) :=
        update_congr (pre0_nodes (W0 m ρ c)) (pre0_edgeMean (W0 m ρ c)) (pre0_weights (W0 m ρ c)) (pre0_bias (W0 m ρ c))
    _ = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) := (stage_update _ _ _ _ _).symm

/-- The neighbours' mean the second pallas_call is entered with is the reference's. -/
theorem mean1 : W3 m ρ c (Proc.devRef .tc main_v37) = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) :=
  (mid1_mean (W2 m ρ c) (m ((c.tc : Thread nD τ).loc main_arg10)) (src2 m ρ c) (dst2 m ρ c)).trans
    ((congrArg (neighbourMean (m ((c.tc : Thread nD τ).loc main_arg10))) (layer1 m ρ c)).trans (v39_eq _ _ _ _ _).symm)

/-- The second pallas_call's output is the reference's first convolution with its positive part. -/
theorem layer2 : W4 m ρ c (Proc.devRef .tc main_v41) = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) :=
  calc W4 m ρ c (Proc.devRef .tc main_v41)
    _ = (dat1 (V3 m ρ) c).arrAt 5 cfg1.N := W4_arr m ρ c 5
    _ = convRelu (V3 m ρ c main_v37) (V3 m ρ c main_v18) (V3 m ρ c main_v38) (V3 m ρ c main_v39) (fun j => V3 m ρ c main_v40 (ix2 (0 : Fin 1) j)) :=
        Blocks.final1 (V3 m ρ) c
    _ = convRelu (val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10))) (val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10))) (m ((c.tc : Thread nD τ).loc main_arg4)) (m ((c.tc : Thread nD τ).loc main_arg6)) (fun j => (m ((c.tc : Thread nD τ).loc main_arg5)) (ix1 j)) :=
        convRelu_congr (mean1 m ρ c) ((mid1_nodes (W2 m ρ c)).trans (layer1 m ρ c))
          (fun i => (mid1_weightsL (W2 m ρ c) i).trans (congrFun (arg4_2 m ρ c) i))
          (fun i => (mid1_weightsR (W2 m ρ c) i).trans (congrFun (arg6_2 m ρ c) i))
          (fun j => (mid1_bias (W2 m ρ c) j).trans (congrFun (arg5_2 m ρ c) (ix1 j)))
    _ = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) := (stage_convRelu _ _ _ _ _ _ _ _).symm

/-- The neighbours' mean the third pallas_call is entered with is the reference's. -/
theorem mean2 : W5 m ρ c (Proc.devRef .tc main_v60) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) :=
  (mid2_mean (W4 m ρ c) (m ((c.tc : Thread nD τ).loc main_arg10)) (src4 m ρ c) (dst4 m ρ c)).trans
    ((congrArg (neighbourMean (m ((c.tc : Thread nD τ).loc main_arg10))) (layer2 m ρ c)).trans (v65_eq _ _ _ _ _ _ _ _).symm)

/-- THE RESULT: the third pallas_call's output, the program's result array, is the reference's last stage of the
    arguments. -/
theorem result : W6 m ρ c (Proc.devRef .tc main_v64) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  calc W6 m ρ c (Proc.devRef .tc main_v64)
    _ = (dat2 (V5 m ρ) c).arrAt 5 cfg2.N := W6_arr m ρ c 5
    _ = conv (V5 m ρ c main_v60) (V5 m ρ c main_v41) (V5 m ρ c main_v61) (V5 m ρ c main_v62) (fun j => V5 m ρ c main_v63 (ix2 (0 : Fin 1) j)) :=
        Blocks.final2 (V5 m ρ) c
    _ = conv (val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10))) (val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10))) (m ((c.tc : Thread nD τ).loc main_arg7)) (m ((c.tc : Thread nD τ).loc main_arg9)) (fun j => (m ((c.tc : Thread nD τ).loc main_arg8)) (ix1 j)) :=
        conv_congr (mean2 m ρ c) ((mid2_nodes (W4 m ρ c)).trans (layer2 m ρ c))
          (fun i => (mid2_weightsL (W4 m ρ c) i).trans (congrFun (arg7_4 m ρ c) i))
          (fun i => (mid2_weightsR (W4 m ρ c) i).trans (congrFun (arg9_4 m ρ c) i))
          (fun j => (mid2_bias (W4 m ρ c) j).trans (congrFun (arg8_4 m ρ c) (ix1 j)))
    _ = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := (stage_conv _ _ _ _ _ _ _ _ _ _ _).symm

end Cert.KernelIdeal.Fold

end
-- ==== Proof.lean ====
/-
  The certificate of a three-layer node update on a graph with 50000 nodes, 500000 edges and 256 features, computed by
  three row-tiled matrix kernels among host gathers and scatter-adds, against the same update written with whole-array
  products.

  Both programs take the mean of the incoming edges' features, add it to the node features and apply a linear map with a
  bias; then twice take the mean of the neighbours' rows and apply a graph convolution (the neighbours' mean through one
  linear map, the node's own row through another, a bias; after the first convolution the positive part). The means are
  the SAME host operations in both programs (a gather at the edges' sources, a scatter-add into their destinations, a
  division by the in-degree floored at one), applied to arrays proved equal, and are never opened. The dense layers differ
  in three ways, none of which changes a value on the extended reals: the kernels convert their operands to bf16 (the
  identity); they multiply 2000 rows at a time into a zero accumulator where the reference multiplies all 50000 at once
  (every entry is the same sum over the 256 contracted features); and they add the bias after the second product of a
  convolution where the reference adds it before (addition is commutative and associative, at the infinities too). No
  finiteness of the inputs is used.

  The kernel program's frames are the generated ones; the reference's is its generated run. The kernel program's run is
  read at its last segment boundary (Proof/KernelRun.lean), the result array there is folded back through the three
  pallas_calls and the host stretches to the reference's last stage of the arguments (Proof/KernelValue.lean over
  Proof/Region0–2.lean, Proof/KPayload.lean, Proof/Boundaries.lean, Proof/Neighbours.lean, Proof/ReferenceSide.lean,
  Proof/Spec.lean), and the reference's run ends at that stage of arguments that agree.
-/
import proofs.«101127_j36988258353722_1_alg».proof.Defs
import proofs.«101127_j36988258353722_1_alg».proof.Proof.Gen.Kernel
import proofs.«101127_j36988258353722_1_alg».proof.Proof.Gen.Kernel.Skeleton
import proofs.«101127_j36988258353722_1_alg».proof.Proof.Gen.Kernel.Launch
import proofs.«101127_j36988258353722_1_alg».proof.Proof.Gen.Kernel.Points
import proofs.«101127_j36988258353722_1_alg».proof.Proof.Gen.Kernel.Frame
import proofs.«101127_j36988258353722_1_alg».proof.Proof.Gen.KernelIdeal
import proofs.«101127_j36988258353722_1_alg».proof.Proof.Gen.KernelIdeal.Skeleton
import proofs.«101127_j36988258353722_1_alg».proof.Proof.Gen.KernelIdeal.Launch
import proofs.«101127_j36988258353722_1_alg».proof.Proof.Gen.KernelIdeal.Points
import proofs.«101127_j36988258353722_1_alg».proof.Proof.Gen.KernelIdeal.Frame
import proofs.«101127_j36988258353722_1_alg».proof.Proof.Gen.ReferenceIdeal
import proofs.«101127_j36988258353722_1_alg».proof.Proof.Gen.ReferenceIdeal.Run
import proofs.«101127_j36988258353722_1_alg».proof.Proof.Gen.ReferenceIdeal.Read
import proofs.«101127_j36988258353722_1_alg».proof.Proof.Gen.Pre_finite_inputs
import proofs.«101127_j36988258353722_1_alg».proof.Proof.KernelRun
import proofs.«101127_j36988258353722_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- The idealized kernel program's run with its result named: the reference's last stage of the kernel's own
    arguments; the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v64)
            = Cert.ReferenceIdeal.Read.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
        ∧ r.2.mem ((c.tc : Thread Cert.KernelIdeal.nD Cert.KernelIdeal.τ).loc Cert.KernelIdeal.main_arg1) = (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0) = (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg1) = (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg2) = (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg3) = (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg4) = (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg5) = (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg6) = (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg7) = (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg8) = (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_arg9) = (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_arg10) = (m ((c.tc : Thread Cert.KernelIdeal.nD Cert.KernelIdeal.τ).loc Cert.KernelIdeal.main_arg10))) :=
  (θ_run Cert.KernelIdeal.defs _ _).mono
    (fun r h c => ⟨(h c).1.trans (Cert.KernelIdeal.Fold.result m ρ c), (h c).2.2.1, (h c).2⟩)
    (Cert.KernelIdeal.Named.run_named (F := Ideal) m ρ)

/-- From memories that agree on the arguments both idealized programs end with the same result arrays: the kernel
    program's run ends at the reference's last stage of its arguments, and the reference's at the same stage of its own,
    which are the same arrays. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ⟨(h c).1.trans ?_, (h c).2.1.trans (hagree c).2.1, (h c).2.2⟩)
    (Cert.ReferenceIdeal.Value.run (F := Ideal) m' ρ')
  obtain ⟨h0, h1, h2, h3, h4, h5, h6, h7, h8, h9, h10⟩ := hagree c
  rw [Cert.ReferenceIdeal.Read.val_main_v71_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
